-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192x16 : Shape := ⟨2, ![8192, 16]⟩
abbrev S8192x8192 : Shape := ⟨2, ![8192, 8192]⟩
abbrev S2048x16 : Shape := ⟨2, ![2048, 16]⟩
abbrev S2048x2048 : Shape := ⟨2, ![2048, 2048]⟩
abbrev S2048 : Shape := ⟨1, ![2048]⟩
abbrev S2048x1 : Shape := ⟨2, ![2048, 1]⟩
abbrev S16x2048 : Shape := ⟨2, ![16, 2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x16, .f32⟩
  | .hbm, ⟨2, _⟩ => ⟨S8192x8192, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x2048, .f32⟩
  | .local _ .vmem, ⟨5, _⟩ => ⟨S2048x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8192x64_S8192x16_0_0 : S8192x64.Slices ![0, 0] S8192x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  reduces_S2048x16_S2048 : S2048x16.Reduces [1] S2048
  shapeCasts_S2048_S2048x1 : S2048.ShapeCasts S2048x1
  transposes_S2048x16_p1_0_S16x2048 : S2048x16.Transposes [1, 0] S16x2048
  broadcasts_S2048x1_S2048x2048 : S2048x1.Broadcasts S2048x2048
  transposes_S2048x1_p1_0_S1x2048 : S2048x1.Transposes [1, 0] S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S2048x16_S16x2048_S2048x2048_1_0_0_1_n_n_wf : DotDims.WF S2048x16 S16x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S8192x16.size a
  hwx0_0 : ∀ i : grid0.Coords, EltTy.bits .f32 = 32 ∨ (Rect.block (s := S8192x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S8192x16.size a
  hwx0_1 : ∀ i : grid0.Coords, EltTy.bits .f32 = 32 ∨ (Rect.block (s := S8192x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf

abbrev win0_0 : Pipeline.Window sig grid0 :=
  Pipeline.Window.ofSpec (Memref.whole main_v0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S16x8192 : Shape := ⟨2, ![16, 8192]⟩
abbrev S8192x8192 : Shape := ⟨2, ![8192, 8192]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x16, .f32⟩
  | .hbm, ⟨2, _⟩ => ⟨S8192x16, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S16x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  slices_S8192x64_S8192x16_0_0 : S8192x64.Slices ![0, 0] S8192x16
  reducesTo_S8192x16_S8192_d1 : S8192x16.ReducesTo [1] S8192
  h_S_ : 0 < S_.numel
  bcast_S8192_S8192x1_0 : S8192.BroadcastsInDim S8192x1 (![0] : Fin 1 → Fin S8192x1.rank)
  transposes_S8192x16_S16x8192_1_0 : S8192x16.Transposes [1, 0] S16x8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x16_S16x8192_S8192x8192_1_0_0_1_n_n_wf : DotDims.WF S8192x16 S16x8192 S8192x8192 [1] [0] [0] [1] [] []

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.FrameBits.lean ====
/-
  The frame of `Kernel`: every weakly fair execution of @main terminates without a fault and leaves the argument
  array as it was; and, for the value claim, what the result array holds at the end.

  @main slices the first 16 columns out of the argument (one host operation) and hands that ONE matrix to the
  pipelined kernel through TWO input windows: window 0 walks its row blocks with the grid's first coordinate,
  window 1 with the second; window 2 is the output, block (i, j) at point (i, j). Because two windows read one
  array, the array's full share is dealt between them, the left half to window 0 and the right half to window 1
  (both only read it); the output array is held whole. At each of the 16 points the body loads its two input blocks
  whole, computes, and stores the output block whole, so what the output's staging buffer holds after the body is
  one function of the two input blocks (`out2`), and an input window holds its block at every point, fetched
  there or not. The scoped buffers are all staging buffers and the body keeps nothing between points, so the
  invariant between points is the (empty) scoped rest.
-/
import proofs.«139019_j25383256719961_1_alg».proof.Proof.Gen.Kernel.Launch
import proofs.«139019_j25383256719961_1_alg».proof.Proof.Gen.Kernel.Skeleton
import proofs.«139019_j25383256719961_1_alg».proof.Proof.Gen.Kernel.Points
import Idealize.ShloMosaic.Lib.Pipeline.FrameBody
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open Idealize.SL.BI (bigSepL bigSep_eq_bigSepL_of_eq bigSepL_cons_cons bigSepL_singleton)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation (the slice). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the slice and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The slice does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-- The sliced matrix as the region finds it: the slice of the launched argument. -/
theorem V_main_v0 (c : Dev nD) : (V m c main_v0 : (⟨S8192x16, .f32⟩ : BufTy).Contents (Elt F))
    = extractStridedSlice S8192x16 ![0, 0] (m ((c : Thread nD τ).loc main_arg0)) slices_S8192x64_S8192x16_0_0 := by
  dsimp only [V, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not
    (unfetched, the block index has not moved). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole input block and the whole output block, as the body's accesses name them. -/
abbrev rIn : Rect S2048x16 := Rect.unit (s := S2048x16) ![0, 0] S2048x16.size inb_S2048x16_S2048x16_0_0
abbrev rOut : Rect S2048x2048 := Rect.unit (s := S2048x2048) ![0, 0] S2048x2048.size inb_S2048x2048_S2048x2048_0_0

/-- What the body leaves in the output window's buffer, from the two input blocks: its one whole-block store. -/
def out2 (x0 : Vec F S2048x16 .f32) (x1 : Vec F S2048x16 .f32) : Vec F S2048x2048 .f32 :=
  View.canon [⟨rOut, k0_pay1 (View.ld x0 rIn) (View.ld x1 rIn)⟩]

/-- The one store covers the buffer. -/
theorem cover2 (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging memrefs, the inputs' at read contents `x0`, `x1` and the output's at anything, runs to
    the continuation holding the inputs' as they were and the output's at `out2 x0 x1`. -/
theorem sound_kernel (c : Dev nD) (E : Set ℕ) (i : grid0.Coords) (arg2 : Memref sig .tc .vmem S2048x16 .f32) (harg2 : arg2.IsWhole) (arg3 : Memref sig .tc .vmem S2048x16 .f32) (harg3 : arg3.IsWhole) (arg4 : Memref sig .tc .vmem S2048x2048 .f32) (harg4 : arg4.IsWhole)
    (x0 : Vec F S2048x16 .f32) (x1 : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The proof data -/

/-- The arrays as the region finds them; after the body at point `t` each input's buffer at its block and the output's
    at `out2` of the two input blocks; the invariant the scoped rest; the shared matrix's full share dealt as its left
    half to window 0 and its right half to window 1; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem Φ_eq (c : Dev nD) (t : Fin (cfg0.N + 1)) : (dats m 0 c).Φ t
    = Pipeline.scopedRest (Ix := Unit) (Name := ℕ) (U := UR sig nD τ) (Lvl := ℕ) (Val := Elt F) spec0 c := rfl

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the shared matrix between its two windows -/

/-- The two buffers behind the three windows' arrays, each whole at the full share, make the pipeline's arrays at
    entry: the sliced matrix's full share splits into its halves, one per input window; the output's stays whole. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have himg : Finset.univ.image (Pipeline.arrRef spec0) = [main_v0, main_v1].toFinset := by decide
  unfold Pipeline.arrBufs Dat.arrays
  rw [bigSep_eq_bigSepL_of_eq [main_v0, main_v1] himg (by decide), bigSep_W0]
  simp only [bigSepL_cons_cons, bigSepL_singleton]
  rw [(arr_whole0 0).set_eq_univ, (arr_whole0 2).set_eq_univ]
  show iprop((((c.tc : Thread nD τ).loc main_v0) ↦{fullShare} V m c main_v0) ∗ (((c.tc : Thread nD τ).loc main_v1) ↦{fullShare} V m c main_v1))
    ⊢ (iprop(((((c.tc : Thread nD τ).loc main_v0) ↦{fullShare.left} V m c main_v0))
        ∗ ((((c.tc : Thread nD τ).loc main_v0) ↦{fullShare.right} V m c main_v0))
        ∗ ((((c.tc : Thread nD τ).loc main_v1) ↦{fullShare} V m c main_v1))) : sProp 𝕄)
  rw [BI.Entails.antisymm
    (pointsTo_share (ℓ := (c.tc : Thread nD τ).loc main_v0) (I := Finset.univ) (f := V m c main_v0) (PosShare.mem_left_op_right fullShare)).1
    (pointsTo_share (PosShare.mem_left_op_right fullShare)).2]
  iintro ⟨⟨Ha, Hb⟩, H1⟩
  isplitl [Ha]; · iexact Ha
  isplitl [Hb]; · iexact Hb
  iexact H1

/-! ## The run -/

/-- What every weakly fair execution ends with: the result array at what the library computes from the proof data,
    the argument as launched. -/
def RunPost (r : PUnit × MemSt nD τ sig (Elt F)) : Prop :=
  ∀ c : Dev nD, r.2.mem ((c.tc : Thread nD τ).loc main_v1) = (dats m 0 c).arrAt 2 cfg0.N
    ∧ r.2.mem ((c.tc : Thread nD τ).loc main_arg0) = m ((c.tc : Thread nD τ).loc main_arg0)

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      rw [Φ_eq]; iintro ⟨-, HR⟩; iexact HR)
    (hout := fun c => by
      rw [Φ_eq]; iintro HR
      isplitr; · iempintro
      iexact HR)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1 2,
      ((h c).2 main_arg0 (Pipeline.mem_restRefs_of main_arg0 rfl (by decide))).trans (V_main_arg0 m c)⟩)

/-- THE FRAME, at any `F`: @main runs to the end without a fault and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Frm

end
-- ==== Proof.FrameIdeal.lean ====
/-
  The frame of `KernelIdeal`: every weakly fair execution of @main terminates without a fault and leaves the argument
  array as it was; and, for the value claim, what the result array holds at the end.

  @main slices the first 16 columns out of the argument (one host operation) and hands that ONE matrix to the
  pipelined kernel through TWO input windows: window 0 walks its row blocks with the grid's first coordinate,
  window 1 with the second; window 2 is the output, block (i, j) at point (i, j). Because two windows read one
  array, the array's full share is dealt between them, the left half to window 0 and the right half to window 1
  (both only read it); the output array is held whole. At each of the 16 points the body loads its two input blocks
  whole, computes, and stores the output block whole, so what the output's staging buffer holds after the body is
  one function of the two input blocks (`out2`), and an input window holds its block at every point, fetched
  there or not. The scoped buffers are all staging buffers and the body keeps nothing between points, so the
  invariant between points is the (empty) scoped rest.
-/
import proofs.«139019_j25383256719961_1_alg».proof.Proof.Gen.KernelIdeal.Launch
import proofs.«139019_j25383256719961_1_alg».proof.Proof.Gen.KernelIdeal.Skeleton
import proofs.«139019_j25383256719961_1_alg».proof.Proof.Gen.KernelIdeal.Points
import Idealize.ShloMosaic.Lib.Pipeline.FrameBody
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open Idealize.SL.BI (bigSepL bigSep_eq_bigSepL_of_eq bigSepL_cons_cons bigSepL_singleton)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation (the slice). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the slice and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The slice does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-- The sliced matrix as the region finds it: the slice of the launched argument. -/
theorem V_main_v0 (c : Dev nD) : (V m c main_v0 : (⟨S8192x16, .f32⟩ : BufTy).Contents (Elt F))
    = extractStridedSlice S8192x16 ![0, 0] (m ((c : Thread nD τ).loc main_arg0)) slices_S8192x64_S8192x16_0_0 := by
  dsimp only [V, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not
    (unfetched, the block index has not moved). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole input block and the whole output block, as the body's accesses name them. -/
abbrev rIn : Rect S2048x16 := Rect.unit (s := S2048x16) ![0, 0] S2048x16.size inb_S2048x16_S2048x16_0_0
abbrev rOut : Rect S2048x2048 := Rect.unit (s := S2048x2048) ![0, 0] S2048x2048.size inb_S2048x2048_S2048x2048_0_0

/-- What the body leaves in the output window's buffer, from the two input blocks: its one whole-block store. -/
def out2 (x0 : Vec F S2048x16 .f32) (x1 : Vec F S2048x16 .f32) : Vec F S2048x2048 .f32 :=
  View.canon [⟨rOut, k0_pay1 (View.ld x0 rIn) (View.ld x1 rIn)⟩]

/-- The one store covers the buffer. -/
theorem cover2 (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging memrefs, the inputs' at read contents `x0`, `x1` and the output's at anything, runs to
    the continuation holding the inputs' as they were and the output's at `out2 x0 x1`. -/
theorem sound_kernel (c : Dev nD) (E : Set ℕ) (i : grid0.Coords) (arg2 : Memref sig .tc .vmem S2048x16 .f32) (harg2 : arg2.IsWhole) (arg3 : Memref sig .tc .vmem S2048x16 .f32) (harg3 : arg3.IsWhole) (arg4 : Memref sig .tc .vmem S2048x2048 .f32) (harg4 : arg4.IsWhole)
    (x0 : Vec F S2048x16 .f32) (x1 : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The proof data -/

/-- The arrays as the region finds them; after the body at point `t` each input's buffer at its block and the output's
    at `out2` of the two input blocks; the invariant the scoped rest; the shared matrix's full share dealt as its left
    half to window 0 and its right half to window 1; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem Φ_eq (c : Dev nD) (t : Fin (cfg0.N + 1)) : (dats m 0 c).Φ t
    = Pipeline.scopedRest (Ix := Unit) (Name := ℕ) (U := UR sig nD τ) (Lvl := ℕ) (Val := Elt F) spec0 c := rfl

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the shared matrix between its two windows -/

/-- The two buffers behind the three windows' arrays, each whole at the full share, make the pipeline's arrays at
    entry: the sliced matrix's full share splits into its halves, one per input window; the output's stays whole. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have himg : Finset.univ.image (Pipeline.arrRef spec0) = [main_v0, main_v1].toFinset := by decide
  unfold Pipeline.arrBufs Dat.arrays
  rw [bigSep_eq_bigSepL_of_eq [main_v0, main_v1] himg (by decide), bigSep_W0]
  simp only [bigSepL_cons_cons, bigSepL_singleton]
  rw [(arr_whole0 0).set_eq_univ, (arr_whole0 2).set_eq_univ]
  show iprop((((c.tc : Thread nD τ).loc main_v0) ↦{fullShare} V m c main_v0) ∗ (((c.tc : Thread nD τ).loc main_v1) ↦{fullShare} V m c main_v1))
    ⊢ (iprop(((((c.tc : Thread nD τ).loc main_v0) ↦{fullShare.left} V m c main_v0))
        ∗ ((((c.tc : Thread nD τ).loc main_v0) ↦{fullShare.right} V m c main_v0))
        ∗ ((((c.tc : Thread nD τ).loc main_v1) ↦{fullShare} V m c main_v1))) : sProp 𝕄)
  rw [BI.Entails.antisymm
    (pointsTo_share (ℓ := (c.tc : Thread nD τ).loc main_v0) (I := Finset.univ) (f := V m c main_v0) (PosShare.mem_left_op_right fullShare)).1
    (pointsTo_share (PosShare.mem_left_op_right fullShare)).2]
  iintro ⟨⟨Ha, Hb⟩, H1⟩
  isplitl [Ha]; · iexact Ha
  isplitl [Hb]; · iexact Hb
  iexact H1

/-! ## The run -/

/-- What every weakly fair execution ends with: the result array at what the library computes from the proof data,
    the argument as launched. -/
def RunPost (r : PUnit × MemSt nD τ sig (Elt F)) : Prop :=
  ∀ c : Dev nD, r.2.mem ((c.tc : Thread nD τ).loc main_v1) = (dats m 0 c).arrAt 2 cfg0.N
    ∧ r.2.mem ((c.tc : Thread nD τ).loc main_arg0) = m ((c.tc : Thread nD τ).loc main_arg0)

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      rw [Φ_eq]; iintro ⟨-, HR⟩; iexact HR)
    (hout := fun c => by
      rw [Φ_eq]; iintro HR
      isplitr; · iempintro
      iexact HR)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1 2,
      ((h c).2 main_arg0 (Pipeline.mem_restRefs_of main_arg0 rfl (by decide))).trans (V_main_arg0 m c)⟩)

/-- THE FRAME, at any `F`: @main runs to the end without a fault and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Frm

end
-- ==== Proof.Dist.lean ====
/-
  The function both programs compute, stated once over abstract row counts.

  Given a matrix `a` with `n` rows and `b` with `m` rows, each row a point of 16 coordinates, the entry for the
  pair (row `i` of `a`, row `j` of `b`) is  exp (-(sqrt (clip (|a_i|² - 2·(a_i · b_j) + |b_j|²)))),  the squared
  distance of the two points written out as squared norms and an inner product, clipped between two positive
  constants, its root negated and exponentiated.  The squared norm is the sum of the squares of the 16 coordinates
  over the zero word, the inner product the sum of the 16 products; the grouping  (|a_i|² - 2·s) + |b_j|²  is the one
  both programs use, so no law of the extended reals beyond  0 - x = -x  is needed to join them.
  With `a = b` the whole 8192-row matrix this is the result array; with `a`, `b` two blocks of 2048 rows it is one
  block of it, and the two agree where the blocks' rows are the matrix's rows (`entry_congr`).
-/
import Idealize.ShloMosaic.PureOps.Ideal
import Idealize.ShloMosaic.PureOps.Ideal.Laws
import Idealize.ShloMosaic.Lib.ValueIdx

noncomputable section

open scoped BigOperators

namespace Cert.Dist

open Idealize.ShloMosaic Idealize.ShloMosaic.ValueIdx

/-- The squared norm of row `i`: the sum of the squares of its 16 coordinates, over the zero word. -/
def sqn {n : Nat} (a : (⟨2, ![n, 16]⟩ : Shape).Idx → EReal) (i : Fin n) : EReal :=
  Ideal.ofBits .f32 0x00000000#32 + ∑ k : Fin 16, a (ix2 i k) * a (ix2 i k)

/-- The inner product of row `i` of `a` with row `j` of `b`. -/
def dot {n m : Nat} (a : (⟨2, ![n, 16]⟩ : Shape).Idx → EReal) (b : (⟨2, ![m, 16]⟩ : Shape).Idx → EReal) (i : Fin n) (j : Fin m) : EReal :=
  ∑ k : Fin 16, a (ix2 i k) * b (ix2 j k)

/-- exp of minus the root of the clipped squared distance between row `i` of `a` and row `j` of `b`. -/
def entry {n m : Nat} (a : (⟨2, ![n, 16]⟩ : Shape).Idx → EReal) (b : (⟨2, ![m, 16]⟩ : Shape).Idx → EReal) (i : Fin n) (j : Fin m) : EReal :=
  Ideal.exp (-(Ideal.sqrt (min (Ideal.ofBits .f32 0x5368D4A5#32) (max (Ideal.ofBits .f32 0x2B8CBCCC#32)
    ((sqn a i - Ideal.ofBits .f32 0x40000000#32 * dot a b i j) + sqn b j)))))

/-- The whole result: entry (i, j) pairs row `i` with row `j` of the one matrix. -/
def G (a : (⟨2, ![8192, 16]⟩ : Shape).Idx → EReal) : (⟨2, ![8192, 8192]⟩ : Shape).Idx → EReal :=
  fun y => entry a a (y 0) (y 1)

theorem G_ix2 (a : (⟨2, ![8192, 16]⟩ : Shape).Idx → EReal) (i j : Fin 8192) : G a (ix2 i j) = entry a a i j := rfl

/-- An entry depends only on the two rows it pairs. -/
theorem entry_congr {n m n' m' : Nat} (a : (⟨2, ![n, 16]⟩ : Shape).Idx → EReal) (b : (⟨2, ![m, 16]⟩ : Shape).Idx → EReal)
    (a' : (⟨2, ![n', 16]⟩ : Shape).Idx → EReal) (b' : (⟨2, ![m', 16]⟩ : Shape).Idx → EReal)
    (i : Fin n) (j : Fin m) (i' : Fin n') (j' : Fin m')
    (ha : ∀ k : Fin 16, a (ix2 i k) = a' (ix2 i' k)) (hb : ∀ k : Fin 16, b (ix2 j k) = b' (ix2 j' k)) :
    entry a b i j = entry a' b' i' j' := by
  unfold entry sqn dot
  simp only [ha, hb]

/-- On the extended reals subtracting from the zero word is negating. -/
theorem zero_word_sub (x : EReal) : Ideal.ofBits .f32 0x00000000#32 - x = -x := by
  rw [Ideal.ofBits_zero_f32, zero_sub]

end Cert.Dist

end
-- ==== Proof.KernelEntry.lean ====
/-
  The kernel body's one stored value, read at a single element.

  The body holds a block `x0` of 2048 points and a block `x1` of 2048 points, each point a row of 16 coordinates, and
  stores at (p, q)
      exp (0 - sqrt (min hi (max lo ((|x0_p|² - 2·(x0_p · x1_q)) + |x1_q|²)))).
  The squared norms are lane sums of squares kept as columns: the first column is spread along each row, the second is
  turned into a row and spread down each column.  The inner products are the elements of one matrix product of `x0` with
  `x1` transposed, into a zero accumulator.  Read at (p, q) every layout step names one element of its operand, a lane sum
  is the sum over the 16 coordinates, and the product's element is the sum over the 16 positions of the contracted axis:
  the stored element is `Cert.Dist.entry x0 x1 p q`.
-/
import proofs.«139019_j25383256719961_1_alg».proof.Proof.Gen.KernelIdeal.Skeleton
import proofs.«139019_j25383256719961_1_alg».proof.Proof.Dist
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Idealize.ShloMosaic Idealize.ShloMosaic.ValueIdx Cert.KernelIdeal Cert.KernelIdeal.Gen
open scoped BigOperators

/-! ## A row's squared norm -/

/-- Over row `p` of the reduced vector, the source index with lane `k` put back is `(p, k)`. -/
theorem lift_row (h : S2048x16.Reduces [1] S2048) (p : Fin 2048) (k : Fin 16) :
    h.lift (ix1 p) k = ix2 p k :=
  funext fun c => Fin.ext (match c with
    | ⟨0, _⟩ => rfl
    | ⟨1, _⟩ => rfl)

/-- The lane sum of the squares of a block, at row `p`, is the squared norm of point `p`: the sum over the 16
    coordinates, the zero word in front of it being the extended real `0`. -/
theorem sqsum_apply (x : FVec Ideal S2048x16 .f32) (hc : S2048x16.ShapeCasts S2048x16) (h : S2048x16.Reduces [1] S2048)
    (hφ : FKind.Formats .f32) (hacc : (0x00000000#32 : BitVec 32) = FKind.add.neutral .f32 hφ) (p : Fin 2048) :
    multiReduction (F := Ideal) .add [1] S2048 (mulf (shapeCast S2048x16 x hc) (shapeCast S2048x16 x hc))
        0x00000000#32 h hφ hacc (ix1 p)
      = Cert.Dist.sqn x p := by
  rw [shapeCast_self x hc]
  refine (Ideal.multiReduction_add_single (mulf x x) 0x00000000#32 h hφ hacc (ix1 p)).trans ?_
  unfold Cert.Dist.sqn
  rw [Ideal.ofBits_zero_f32, zero_add]
  show ∑ k : Fin 16, mulf x x (h.lift (ix1 p) k) = ∑ k : Fin 16, x (ix2 p k) * x (ix2 p k)
  refine Finset.sum_congr rfl fun k _ => ?_
  rw [lift_row h p k]
  rfl

/-! ## The layout steps the two norm columns go through -/

/-- A vector of 2048 entries kept as a column `[2048, 1]` reads, at `(p, u)`, its entry `p`: both sit at row-major
    position `p`. -/
theorem column_apply {α : Type} (v : S2048.Idx → α) (h : S2048.ShapeCasts S2048x1) (p : Fin 2048) (u : Fin 1) :
    shapeCast S2048x1 v h (ix2 p u) = v (ix1 p) :=
  shapeCast_apply v h (ix2 p u) (ix1 p) (by
    rw [Shape.rowMajor_val_two, Shape.rowMajor_val_one]
    show p.val = p.val * 1 + u.val
    omega)

/-- A column `[2048, 1]` spread along the rows to `[2048, 2048]` reads, at `(p, q)`, the column's entry `p`. -/
theorem spread_column_apply {α : Type} (v : S2048x1.Idx → α) (h : S2048x1.Broadcasts S2048x2048) (p q : Fin 2048) :
    broadcastTo S2048x2048 v h (ix2 p q) = v (ix2 p (0 : Fin 1)) := by
  refine broadcastTo_apply v h (ix2 p q) (ix2 p (0 : Fin 1)) fun a => ?_
  match a with
  | ⟨0, _⟩ =>
    show p.val = if (2048 : Nat) = 1 then 0 else p.val
    rw [if_neg (by decide)]
  | ⟨1, _⟩ =>
    show (0 : Nat) = if (1 : Nat) = 1 then 0 else q.val
    rw [if_pos rfl]

/-- The first block's norm column spread along the rows: at `(p, q)` the squared norm of its point `p`. -/
theorem rownorm_apply (x : FVec Ideal S2048x16 .f32) (hc : S2048x16.ShapeCasts S2048x16) (h : S2048x16.Reduces [1] S2048)
    (hφ : FKind.Formats .f32) (hacc : (0x00000000#32 : BitVec 32) = FKind.add.neutral .f32 hφ)
    (h1 : S2048.ShapeCasts S2048x1) (hb : S2048x1.Broadcasts S2048x2048) (p q : Fin 2048) :
    broadcastTo S2048x2048
        (shapeCast S2048x1
          (multiReduction (F := Ideal) .add [1] S2048 (mulf (shapeCast S2048x16 x hc) (shapeCast S2048x16 x hc))
            0x00000000#32 h hφ hacc) h1) hb (ix2 p q)
      = Cert.Dist.sqn x p :=
  (spread_column_apply _ hb p q).trans ((column_apply _ h1 p 0).trans (sqsum_apply x hc h hφ hacc p))

/-- The second block's norm column turned into a row and spread down the columns: at `(p, q)` the squared norm of its
    point `q`. -/
theorem colnorm_apply (x : FVec Ideal S2048x16 .f32) (hc : S2048x16.ShapeCasts S2048x16) (h : S2048x16.Reduces [1] S2048)
    (hφ : FKind.Formats .f32) (hacc : (0x00000000#32 : BitVec 32) = FKind.add.neutral .f32 hφ)
    (h1 : S2048.ShapeCasts S2048x1) (ht : S2048x1.Transposes [1, 0] S1x2048) (hb : S1x2048.Broadcasts S2048x2048)
    (p q : Fin 2048) :
    broadcastTo S2048x2048
        (transpose S1x2048 [1, 0]
          (shapeCast S2048x1
            (multiReduction (F := Ideal) .add [1] S2048 (mulf (shapeCast S2048x16 x hc) (shapeCast S2048x16 x hc))
              0x00000000#32 h hφ hacc) h1) ht) hb (ix2 p q)
      = Cert.Dist.sqn x q :=
  (broadcastTo_1b_ab_apply _ hb p q).trans
    ((transpose_ix2_apply _ ht 0 q).trans ((column_apply _ h1 q 0).trans (sqsum_apply x hc h hφ hacc q)))

/-! ## The matrix product -/

/-- The left operand's row is the result's row. -/
theorem lhs_axis0 (i : S2048x2048.Idx) (k : dot_S2048x16_S16x2048_S2048x2048_1_0_0_1_n_n.contr.Idx) :
    (dot_S2048x16_S16x2048_S2048x2048_1_0_0_1_n_n.lhsIdx i k 0).val = (i 0).val := by
  unfold DotDims.lhsIdx
  rw [dif_neg (show ¬(0 : Fin S2048x16.rank) ∈ dot_S2048x16_S16x2048_S2048x2048_1_0_0_1_n_n.lhsBatch by decide),
    dif_pos (show (0 : Fin S2048x16.rank) ∈ dot_S2048x16_S16x2048_S2048x2048_1_0_0_1_n_n.lhsNonContracting by decide)]
  rfl

/-- The left operand's column is the contracted position. -/
theorem lhs_axis1 (i : S2048x2048.Idx) (k : dot_S2048x16_S16x2048_S2048x2048_1_0_0_1_n_n.contr.Idx) :
    (dot_S2048x16_S16x2048_S2048x2048_1_0_0_1_n_n.lhsIdx i k 1).val = (k ⟨0, by decide⟩).val :=
  dot_S2048x16_S16x2048_S2048x2048_1_0_0_1_n_n.lhsIdx_val_of_single rfl i k

/-- The right operand's row is the contracted position. -/
theorem rhs_axis0 (i : S2048x2048.Idx) (k : dot_S2048x16_S16x2048_S2048x2048_1_0_0_1_n_n.contr.Idx) :
    (dot_S2048x16_S16x2048_S2048x2048_1_0_0_1_n_n.rhsIdx i k 0).val = (k ⟨0, by decide⟩).val :=
  dot_S2048x16_S16x2048_S2048x2048_1_0_0_1_n_n.rhsIdx_val_of_single rfl i k

/-- The right operand's column is the result's column. -/
theorem rhs_axis1 (i : S2048x2048.Idx) (k : dot_S2048x16_S16x2048_S2048x2048_1_0_0_1_n_n.contr.Idx) :
    (dot_S2048x16_S16x2048_S2048x2048_1_0_0_1_n_n.rhsIdx i k 1).val = (i 1).val := by
  unfold DotDims.rhsIdx
  rw [dif_neg (show ¬(1 : Fin S16x2048.rank) ∈ dot_S2048x16_S16x2048_S2048x2048_1_0_0_1_n_n.rhsBatch by decide),
    dif_pos (show (1 : Fin S16x2048.rank) ∈ dot_S2048x16_S16x2048_S2048x2048_1_0_0_1_n_n.rhsNonContracting by decide)]
  rfl

/-- The product of a block with another block transposed, into the zero accumulator, reads at `(p, q)` the inner
    product of point `p` of the first with point `q` of the second: the contraction's one axis runs over the 16
    coordinates. -/
theorem product_apply (a b : FVec Ideal S2048x16 .f32) (ht : S2048x16.Transposes [1, 0] S16x2048) (p q : Fin 2048) :
    matmul dot_S2048x16_S16x2048_S2048x2048_1_0_0_1_n_n none a (transpose S16x2048 [1, 0] b ht)
        (constant (F := Ideal) S2048x2048 .f32 0x00000000#32) (ix2 p q)
      = Cert.Dist.dot a b p q := by
  simp only [matmul]
  rw [Ideal.matmul_constant_zero_apply,
    ← Equiv.sum_comp (contrEquiv1 dot_S2048x16_S16x2048_S2048x2048_1_0_0_1_n_n 16 rfl rfl).symm]
  unfold Cert.Dist.dot
  refine Finset.sum_congr rfl fun k _ => ?_
  have hk := contrEquiv1_symm_val dot_S2048x16_S16x2048_S2048x2048_1_0_0_1_n_n 16 rfl rfl k
  have el : dot_S2048x16_S16x2048_S2048x2048_1_0_0_1_n_n.lhsIdx (ix2 p q)
      ((contrEquiv1 dot_S2048x16_S16x2048_S2048x2048_1_0_0_1_n_n 16 rfl rfl).symm k) = ix2 p k :=
    funext fun c => Fin.ext (by
      match c with
      | ⟨0, _⟩ => exact lhs_axis0 _ _
      | ⟨1, _⟩ => exact (lhs_axis1 _ _).trans hk)
  have er : dot_S2048x16_S16x2048_S2048x2048_1_0_0_1_n_n.rhsIdx (ix2 p q)
      ((contrEquiv1 dot_S2048x16_S16x2048_S2048x2048_1_0_0_1_n_n 16 rfl rfl).symm k) = ix2 k q :=
    funext fun c => Fin.ext (by
      match c with
      | ⟨0, _⟩ => exact (rhs_axis0 _ _).trans hk
      | ⟨1, _⟩ => exact rhs_axis1 _ _)
  rw [el, er, transpose_ix2_apply b ht k q]

/-- The same with the two blocks under their identity shape casts, as the body passes them. -/
theorem product_cast_apply (x0 x1 : FVec Ideal S2048x16 .f32) (hc : S2048x16.ShapeCasts S2048x16)
    (ht : S2048x16.Transposes [1, 0] S16x2048) (p q : Fin 2048) :
    matmul dot_S2048x16_S16x2048_S2048x2048_1_0_0_1_n_n none (shapeCast S2048x16 x0 hc)
        (transpose S16x2048 [1, 0] (shapeCast S2048x16 x1 hc) ht)
        (constant (F := Ideal) S2048x2048 .f32 0x00000000#32) (ix2 p q)
      = Cert.Dist.dot x0 x1 p q := by
  rw [shapeCast_self x0 hc, shapeCast_self x1 hc]
  exact product_apply x0 x1 ht p q

/-! ## The stored element -/

theorem pay_apply (x0 x1 : Vec Ideal S2048x16 .f32) (p q : Fin 2048) :
    k0_pay1 (F := Ideal) x0 x1 (ix2 p q) = Cert.Dist.entry x0 x1 p q := by
  unfold Cert.Dist.entry
  rw [← Cert.Dist.zero_word_sub,
    ← rownorm_apply x0 shapeCasts_S2048x16_S2048x16 reduces_S2048x16_S2048 (.inl rfl) rfl shapeCasts_S2048_S2048x1
      broadcasts_S2048x1_S2048x2048 p q,
    ← colnorm_apply x1 shapeCasts_S2048x16_S2048x16 reduces_S2048x16_S2048 (.inl rfl) rfl shapeCasts_S2048_S2048x1
      transposes_S2048x1_p1_0_S1x2048 broadcasts_S1x2048_S2048x2048 p q,
    ← product_cast_apply x0 x1 shapeCasts_S2048x16_S2048x16 transposes_S2048x16_p1_0_S16x2048 p q]
  rfl

end Cert.KernelIdeal.Entry

end
-- ==== Proof.KernelValue.lean ====
/-
  What the result array holds after the run, at the extended reals: the function `Cert.Dist.G` of the sliced matrix.

  Point (i, j) of the 4 × 4 grid writes back block (i, j) of the 8192 × 8192 result, a 2048 × 2048 tile. The body's
  stored value at (p, q) of the tile pairs row p of the first input block with row q of the second
  (the kernel's entry lemma); the first input block is rows 2048·i … of the sliced matrix and the second rows 2048·j …,
  both blocks of the ONE matrix, so the tile's entry (p, q) is the whole result's entry (2048·i + p, 2048·j + q).
  The 16 tiles cover the result, each written back once, so the array ends holding `G` everywhere.
-/
import proofs.«139019_j25383256719961_1_alg».proof.Proof.FrameIdeal
import proofs.«139019_j25383256719961_1_alg».proof.Proof.KernelEntry
import proofs.«139019_j25383256719961_1_alg».proof.Proof.Dist
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the first input's row block is the output's row block, the second
    input's row block is the output's COLUMN block, neither input moves along its 16 columns, and the output's block
    indices stay below 4. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 3 :=
  (by decide +kernel : ∀ t : Fin grid0.N, _)

/-- Every one of the 4 × 4 tiles is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- Row `p` of the first input block at point `t` is row `2048·(row block) + p` of the sliced matrix. -/
theorem in0_row (c : Dev nD) (t : Fin cfg0.N) (p : Fin 2048) (I : Fin 8192) (hI : I.val = win0_2.index t (0 : Fin 2) * 2048 + p.val) (k : Fin 16) :
    iblk m c 0 t (ix2 p k) = V m c main_v0 (ix2 I k) := by
  obtain ⟨e0, e1, e2, e3, e4, e5⟩ := idx_facts t
  show V m c main_v0 (((cfg0.win 0).blk t).view.emb (ix2 p k)) = V m c main_v0 (ix2 I k)
  refine congrArg (V m c main_v0) (funext fun a => Fin.ext ?_)
  match a with
  | ⟨0, _⟩ => show win0_0.index t (0 : Fin 2) * 2048 + 1 * p.val = I.val; omega
  | ⟨1, _⟩ => show win0_0.index t (1 : Fin 2) * 16 + 1 * k.val = k.val; omega

/-- Row `q` of the second input block at point `t` is row `2048·(column block) + q` of the sliced matrix. -/
theorem in1_row (c : Dev nD) (t : Fin cfg0.N) (q : Fin 2048) (J : Fin 8192) (hJ : J.val = win0_2.index t (1 : Fin 2) * 2048 + q.val) (k : Fin 16) :
    iblk m c 1 t (ix2 q k) = V m c main_v0 (ix2 J k) := by
  obtain ⟨e0, e1, e2, e3, e4, e5⟩ := idx_facts t
  show V m c main_v0 (((cfg0.win 1).blk t).view.emb (ix2 q k)) = V m c main_v0 (ix2 J k)
  refine congrArg (V m c main_v0) (funext fun a => Fin.ext ?_)
  match a with
  | ⟨0, _⟩ => show win0_1.index t (0 : Fin 2) * 2048 + 1 * q.val = J.val; omega
  | ⟨1, _⟩ => show win0_1.index t (1 : Fin 2) * 16 + 1 * k.val = k.val; omega

/-- WHAT POINT `t` WRITES BACK is tile `t` of `G` of the sliced matrix. -/
theorem flushed_eq (c : Dev nD) (t : Fin cfg0.N) :
    (dats m 0 c).flushed 2 t = ((cfg0.win 2).blk t).view.read (Elt Ideal) (Cert.Dist.G (V m c main_v0)) := by
  show (cfg0.win 2).cut (grid0.coords t) ((dats m 0 c).after 2 t) = _
  rw [after2]
  unfold out2
  rw [View.canon_unit_zero hz]
  simp only [View.ld_unit_zero (S := S2048x16) hz]
  obtain ⟨e0, e1, e2, e3, e4, e5⟩ := idx_facts t
  funext j
  obtain ⟨p, q, rfl⟩ : ∃ (p q : Fin 2048), j = ix2 p q := ⟨j 0, j 1, eq_ix2 j⟩
  show k0_pay1 (iblk m c 0 t) (iblk m c 1 t) (ix2 p q) = Cert.Dist.G (V m c main_v0) (((cfg0.win 2).blk t).view.emb (ix2 p q))
  refine (Cert.KernelIdeal.Entry.pay_apply (iblk m c 0 t) (iblk m c 1 t) p q).trans ?_
  have hI : win0_2.index t (0 : Fin 2) * 2048 + p.val < 8192 := by have := p.isLt; omega
  have hJ : win0_2.index t (1 : Fin 2) * 2048 + q.val < 8192 := by have := q.isLt; omega
  have he : ((cfg0.win 2).blk t).view.emb (ix2 p q)
      = ix2 (⟨win0_2.index t (0 : Fin 2) * 2048 + p.val, hI⟩ : Fin 8192) (⟨win0_2.index t (1 : Fin 2) * 2048 + q.val, hJ⟩ : Fin 8192) :=
    funext fun a => Fin.ext (by
      match a with
      | ⟨0, _⟩ => show win0_2.index t (0 : Fin 2) * 2048 + 1 * p.val = win0_2.index t (0 : Fin 2) * 2048 + p.val; omega
      | ⟨1, _⟩ => show win0_2.index t (1 : Fin 2) * 2048 + 1 * q.val = win0_2.index t (1 : Fin 2) * 2048 + q.val; omega)
  rw [he, Cert.Dist.G_ix2]
  exact Cert.Dist.entry_congr _ _ _ _ p q _ _ (fun k => in0_row m c t p _ rfl k) (fun k => in1_row m c t q _ rfl k)

/-- An index of the result is in point `t`'s tile iff each coordinate is in the tile's range on its axis. -/
theorem mem_blk (t : Fin cfg0.N) (i : S8192x8192.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v1).slice (win0_2.rect t)).set ↔ _
  rw [View.set_slice_whole, Rect.mem_set_unit]
  exact Iff.rfl

/-- Every index of the result is in some point's tile: the point whose tile is (row / 2048, column / 2048). -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- THE RESULT ARRAY after the run: `G` of the sliced matrix. -/
theorem final (c : Dev nD) : (dats m 0 c).arrAt 2 cfg0.N = Cert.Dist.G (V m c main_v0) :=
  (dats m 0 c).arrAt_eq_of_cover 2 (Cert.Dist.G (V m c main_v0)) (fun t _ => flushed_eq m c t) cover

/-- The run, read: the result array at `G` of the slice of the launched argument, the argument unchanged. -/
theorem run : θ_run defs (onTc (τ := τ) (main (F := Ideal))) ⟨m, fun _ => 0, ρ⟩ fun r => ∀ c : Dev nD,
      r.2.mem ((c.tc : Thread nD τ).loc main_v1)
        = Cert.Dist.G (extractStridedSlice S8192x16 ![0, 0] (m ((c.tc : Thread nD τ).loc main_arg0)) slices_S8192x64_S8192x16_0_0)
      ∧ r.2.mem ((c.tc : Thread nD τ).loc main_arg0) = m ((c.tc : Thread nD τ).loc main_arg0) :=
  (θ_run defs _ _).mono (fun r h c => ⟨((h c).1.trans (final m c)).trans (congrArg Cert.Dist.G (V_main_v0 m c)), (h c).2⟩)
    (run_main (F := Ideal) m ρ)

end Cert.KernelIdeal.Val

end
-- ==== Proof.RefEntry.lean ====
import proofs.«139019_j25383256719961_1_alg».proof.Proof.Gen.ReferenceIdeal.Read
import proofs.«139019_j25383256719961_1_alg».proof.Proof.Dist
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Entry

open Idealize.ShloMosaic Idealize.ShloMosaic.ValueIdx Cert.ReferenceIdeal Cert.ReferenceIdeal.Gen Cert.ReferenceIdeal.Read

/-- The row sums of the squared slice are the squared norms of its rows. -/
theorem sqn_eq (x0 : (⟨S8192x64, .f32⟩ : BufTy).Contents (Elt Ideal)) (p : Fin 8192) :
    val_main_v2 (F := Ideal) x0 (ix1 p) = Cert.Dist.sqn (val_main_v0 (F := Ideal) x0) p := by
  rw [val_main_v2_apply, val_main_cst_apply]
  unfold Cert.Dist.sqn
  refine congrArg (_ + ·) (Finset.sum_congr rfl fun k _ => ?_)
  have e : idx_main_v2 (ix1 p) k = ix2 p k :=
    funext fun a => Fin.ext (by match a with | ⟨0, _⟩ => rfl | ⟨1, _⟩ => rfl)
  rw [val_main_v1_apply, e]
  rfl

/-- The product of the slice with its transpose holds the inner products of its rows. -/
theorem dot_eq (x0 : (⟨S8192x64, .f32⟩ : BufTy).Contents (Elt Ideal)) (p q : Fin 8192) :
    val_main_v5 (F := Ideal) x0 (ix2 p q)
      = Cert.Dist.dot (val_main_v0 (F := Ideal) x0) (val_main_v0 (F := Ideal) x0) p q := by
  rw [val_main_v5_apply]
  unfold Cert.Dist.dot
  refine Finset.sum_congr rfl fun k _ => ?_
  have el : lidx_main_v5 (ix2 p q) k = ix2 p k :=
    funext fun a => Fin.ext (by match a with | ⟨0, _⟩ => rfl | ⟨1, _⟩ => rfl)
  have er : idx_main_v4 (ridx_main_v5 (ix2 p q) k) = ix2 q k :=
    funext fun a => Fin.ext (by match a with | ⟨0, _⟩ => rfl | ⟨1, _⟩ => rfl)
  rw [val_main_v4_apply, el, er]

theorem ref_eq (x0 : (⟨S8192x64, .f32⟩ : BufTy).Contents (Elt Ideal)) :
    val_main_v16 (F := Ideal) x0 = Cert.Dist.G (val_main_v0 (F := Ideal) x0) := by
  funext i
  obtain ⟨p, q, rfl⟩ : ∃ (p q : Fin 8192), i = ix2 p q := ⟨i 0, i 1, eq_ix2 i⟩
  have e8 : idx_main_v3 (idx_main_v8 (ix2 p q)) = ix1 p :=
    funext fun a => Fin.ext (by match a with | ⟨0, _⟩ => rfl)
  have e11 : idx_main_v10 (idx_main_v11 (ix2 p q)) = ix1 q :=
    funext fun a => Fin.ext (by match a with | ⟨0, _⟩ => rfl)
  rw [val_main_v16_apply, val_main_v15_apply, val_main_v14_apply, val_main_v13_apply,
    val_main_call0_v4_apply, val_main_call0_v3_apply, val_main_cst_2_apply,
    val_main_call0_v2_apply, val_main_call0_v1_apply, val_main_call0_v0_apply, val_main_cst_1_apply,
    val_main_v12_apply, val_main_v9_apply, val_main_v8_apply, val_main_v3_apply, e8, sqn_eq,
    val_main_v7_apply, val_main_v6_apply, val_main_cst_0_apply, dot_eq,
    val_main_v11_apply, val_main_v10_apply, e11, sqn_eq, Cert.Dist.G_ix2]
  simp only [Ideal.hostUnary_exp_def, Ideal.hostNegf_def, Ideal.negf_def, Ideal.hostUnary_sqrt_def,
    Ideal.minimumf_def, Ideal.maximumf_def, Ideal.addf_def, Ideal.subf_def, Ideal.mulf_def, Ideal.ofBits_def]
  rfl

end Cert.ReferenceIdeal.Entry

end
-- ==== Proof.lean ====
/-
  The claim: a pairwise-distance kernel against its jnp reference, over the extended reals.

  Both programs slice the first 16 columns out of the 8192 × 64 argument and, for every pair (i, j) of the 8192 rows,
  compute  exp (-(sqrt (clip (|a_i|² - 2·(a_i · a_j) + |a_j|²)))).  The kernel does it tile by tile on a 4 × 4 grid,
  reading the sliced matrix through two windows (row blocks for i, row blocks for j) and writing a 2048 × 2048 tile
  per point; the reference does it on the whole matrix at once. At the extended reals a lane sum is the host's sum,
  the matrix unit's product into a zero accumulator is the host's contraction, and the kernel's  0 - x  is the
  reference's  -x;  both sides group the three terms the same way and use the same two clipping words, so the two
  results are one function of the argument (`Cert.Dist.G`), index by index, with no appeal to finiteness.

  * Proof/Dist.lean — that function, over abstract row counts.
  * Proof/FrameIdeal.lean, Proof/FrameBits.lean — each kernel program's run: the two input windows share the sliced
    matrix at half shares, the body's one store is a function of the two input blocks, every execution terminates
    and leaves the argument as it was, the result array ending at what the write-backs make of it.
  * Proof/KernelEntry.lean — the body's stored value at (p, q) pairs row p of one block with row q of the other.
  * Proof/KernelValue.lean — the 16 tiles assemble to `G` of the sliced matrix.
  * Proof/RefEntry.lean — the reference's result is `G` of the sliced matrix.
  `preserves` is trivial: the idealization is the kernel's own text read at the extended reals.
-/
import proofs.«139019_j25383256719961_1_alg».proof.Defs
import proofs.«139019_j25383256719961_1_alg».proof.Proof.Gen.Kernel
import proofs.«139019_j25383256719961_1_alg».proof.Proof.Gen.KernelIdeal
import proofs.«139019_j25383256719961_1_alg».proof.Proof.Gen.ReferenceIdeal
import proofs.«139019_j25383256719961_1_alg».proof.Proof.Gen.ReferenceIdeal.Run
import proofs.«139019_j25383256719961_1_alg».proof.Proof.Gen.ReferenceIdeal.Read
import proofs.«139019_j25383256719961_1_alg».proof.Proof.Gen.Pre_finite_inputs
import proofs.«139019_j25383256719961_1_alg».proof.Proof.FrameBits
import proofs.«139019_j25383256719961_1_alg».proof.Proof.FrameIdeal
import proofs.«139019_j25383256719961_1_alg».proof.Proof.KernelValue
import proofs.«139019_j25383256719961_1_alg».proof.Proof.RefEntry
import Idealize.ShloMosaic.Adequacy
import Idealize.ShloMosaic.Init

noncomputable section

namespace Cert.Proof

open Idealize.ShloMosaic Idealize.SL.Sem

/-- The word-level kernel runs to the end and leaves the argument as launched. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the argument, the kernel's result array and the reference's both end at `G` of the
    slice of that argument. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Entry.ref_eq, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
